-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024x1024 .f32) (main_arg5 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024x1024 .f32) (main_arg5 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S8192x1024, .bf16⟩
  | .hbm, ⟨7, _⟩ => ⟨S8192x1024, .bf16⟩
  | .hbm, ⟨8, _⟩ => ⟨S4x1024x1024, .bf16⟩
  | .hbm, ⟨9, _⟩ => ⟨S4x1024x1024, .bf16⟩
  | .hbm, ⟨10, _⟩ => ⟨S8192x1024, .f32⟩
  | .hbm, ⟨11, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S8192x4x1024 : Shape := ⟨3, ![8192, 4, 1024]⟩
abbrev S1x4x1024 : Shape := ⟨3, ![1, 4, 1024]⟩
abbrev S8192x1x1024 : Shape := ⟨3, ![8192, 1, 1024]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024x1024, .f32⟩
  | .hbm, ⟨5, _⟩ => ⟨S4x1024, .f32⟩
  | .hbm, ⟨6, _⟩ => ⟨S8192x4x1024, .f32⟩
  | .hbm, ⟨7, _⟩ => ⟨S8192x4x1024, .f32⟩
  | .hbm, ⟨8, _⟩ => ⟨S8192x4x1024, .f32⟩
  | .hbm, ⟨9, _⟩ => ⟨S1x4x1024, .f32⟩
  | .hbm, ⟨10, _⟩ => ⟨S8192x4x1024, .f32⟩
  | .hbm, ⟨11, _⟩ => ⟨S8192x4x1024, .f32⟩
  | .hbm, ⟨12, _⟩ => ⟨S8192x1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  bcast_S_S8192x1024 : S_.BroadcastsInDim S8192x1024 (![] : Fin 0 → Fin S8192x1024.rank)
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  dot_S8192x1024_S4x1024x1024_S8192x4x1024_1_2_0_01_n_n_wf : DotDims.WF S8192x1024 S4x1024x1024 S8192x4x1024 [1] [2] [0] [0, 1] [] []

variable [Facts₀]

def dot_S8192x1024_S4x1024x1024_S8192x4x1024_1_2_0_01_n_n : DotDims S8192x1024 S4x1024x1024 S8192x4x1024 where
  lhsContracting := [1]
  rhsContracting := [2]
  lhsNonContracting := [0]
  rhsNonContracting := [0, 1]
  lhsBatch := []
  rhsBatch := []
  wf := dot_S8192x1024_S4x1024x1024_S8192x4x1024_1_2_0_01_n_n_wf

class Facts : Prop extends Facts₀ where

variable [Facts]
-- ==== Proof.Spec.lean ====
/-
  The LSTM cell that both programs compute, written once as a function of the six argument arrays on the
  extended reals.

  Row `b` of the two results depends on row `b` of `x` and of `h`, on the entry `c[b, q]` and on the whole of the
  stacked weights and biases:
    pre-activation of gate `g` at unit `q`:   s_g = Σ_k x[b,k]·Wx[g,q,k] + Σ_k h[b,k]·Wh[g,q,k] + bh[g,q]
    new cell state:                           c' = σ(s_1)·c[b,q] + σ(s_0)·tanh(s_2)
    new hidden state:                         h' = σ(s_3)·tanh(c')
  with σ the logistic function `1 / (1 + e^(-s))`, read on the extended reals with the conventions of
  `Ideal.div` and `Ideal.exp`. No distributivity or cancellation is used anywhere, so nothing here needs the
  inputs to be finite: the two programs spell the SAME tree of sums, products and function applications.
-/
import Idealize.ShloMosaic.PureOps.Ideal
import Idealize.ShloMosaic.Lib.ValueIdx

noncomputable section

open scoped BigOperators

namespace Cert.LstmCell

open Idealize.ShloMosaic Idealize.ShloMosaic.ValueIdx

/-- The stacked weights: gate, output unit, input feature. -/
abbrev SWgt : Shape := ⟨3, ![4, 1024, 1024]⟩
/-- The stacked biases: gate, output unit. -/
abbrev SBias : Shape := ⟨2, ![4, 1024]⟩
/-- The activations and states: batch row, unit. -/
abbrev SAct : Shape := ⟨2, ![8192, 1024]⟩

/-- Gate `g`'s pre-activation at output unit `q`, from one row of `x` and one row of `h`. -/
def gate (xr hr : Fin 1024 → EReal) (Wx Wh : SWgt.Idx → EReal) (bh : SBias.Idx → EReal) (g : Fin 4) (q : Fin 1024) : EReal :=
  (∑ k : Fin 1024, xr k * Wx (ix3 g q k)) + (∑ k : Fin 1024, hr k * Wh (ix3 g q k)) + bh (ix2 g q)

/-- The new cell state at unit `q`: forget gate times the old state `cv`, plus input gate times candidate. -/
def cellAt (xr hr : Fin 1024 → EReal) (cv : EReal) (Wx Wh : SWgt.Idx → EReal) (bh : SBias.Idx → EReal) (q : Fin 1024) : EReal :=
  Ideal.logistic (gate xr hr Wx Wh bh 1 q) * cv + Ideal.logistic (gate xr hr Wx Wh bh 0 q) * Ideal.tanh (gate xr hr Wx Wh bh 2 q)

/-- The new hidden state at unit `q`: output gate times `tanh` of the new cell state. -/
def hiddenAt (xr hr : Fin 1024 → EReal) (cv : EReal) (Wx Wh : SWgt.Idx → EReal) (bh : SBias.Idx → EReal) (q : Fin 1024) : EReal :=
  Ideal.logistic (gate xr hr Wx Wh bh 3 q) * Ideal.tanh (cellAt xr hr cv Wx Wh bh q)

/-- The whole new cell-state array. -/
def cellNext (x h c : SAct.Idx → EReal) (Wx Wh : SWgt.Idx → EReal) (bh : SBias.Idx → EReal) : SAct.Idx → EReal := fun i =>
  cellAt (fun k => x (ix2 (i 0) k)) (fun k => h (ix2 (i 0) k)) (c i) Wx Wh bh (i 1)

/-- The whole new hidden-state array. -/
def hiddenNext (x h c : SAct.Idx → EReal) (Wx Wh : SWgt.Idx → EReal) (bh : SBias.Idx → EReal) : SAct.Idx → EReal := fun i =>
  hiddenAt (fun k => x (ix2 (i 0) k)) (fun k => h (ix2 (i 0) k)) (c i) Wx Wh bh (i 1)

theorem cellNext_ix2 (x h c : SAct.Idx → EReal) (Wx Wh : SWgt.Idx → EReal) (bh : SBias.Idx → EReal) (b : Fin 8192) (q : Fin 1024) :
    cellNext x h c Wx Wh bh (ix2 b q) = cellAt (fun k => x (ix2 b k)) (fun k => h (ix2 b k)) (c (ix2 b q)) Wx Wh bh q := rfl

theorem hiddenNext_ix2 (x h c : SAct.Idx → EReal) (Wx Wh : SWgt.Idx → EReal) (bh : SBias.Idx → EReal) (b : Fin 8192) (q : Fin 1024) :
    hiddenNext x h c Wx Wh bh (ix2 b q) = hiddenAt (fun k => x (ix2 b k)) (fun k => h (ix2 b k)) (c (ix2 b q)) Wx Wh bh q := rfl

/-- The f32 word `0x3F800000` is the real number one. -/
theorem ofBits_one_f32 : Ideal.ofBits .f32 0x3F800000#32 = 1 := by
  simp [Ideal.ofBits, Ideal.ieee, -EReal.coe_mul]; norm_num

/-- The logistic function spelt out on the host — negate, exponential, add one, divide one by it — is the one
    function `Ideal.logistic`. -/
theorem host_sigmoid (y : EReal) :
    FloatOps.hostDivf (F := Ideal) (φ := .f32) (FloatOps.ofBits .f32 0x3F800000#32)
      (FloatOps.addf (FloatOps.ofBits .f32 0x3F800000#32) (FloatOps.hostUnary .exp (FloatOps.hostNegf y))) = Ideal.logistic y := by
  show Ideal.div (Ideal.ofBits .f32 0x3F800000#32) (Ideal.ofBits .f32 0x3F800000#32 + Ideal.exp (-y)) = Ideal.div 1 (1 + Ideal.exp (-y))
  rw [ofBits_one_f32]

end Cert.LstmCell

end
-- ==== Proof.Body.lean ====
/-
  The matrix products and the layout operations of the kernel body, read at one entry.

  The body multiplies a [512, 1024] block of activations by ONE gate's [1024, 1024] weight matrix, contracting the
  LAST axis of both (no transpose is materialised): entry (p, q) of the product is Σ_k a[p,k]·w[q,k]. Each gate's
  matrix is a unit slab [g, :, :] of the stacked weights with the leading axis dropped, and each gate's bias row
  [g, :] is spread over the 512 rows of the block.
-/
import proofs.«160627_j76519137345618_1_alg».proof.Proof.Gen.KernelIdeal.Frame
import proofs.«160627_j76519137345618_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.LstmCell Idealize.ShloMosaic Idealize.ShloMosaic.ValueIdx

/-! ## The product's operand indices -/

theorem lhs_axis0 (i : S512x1024.Idx) (κ : dot_S512x1024_S1024x1024_S512x1024_1_1_0_0_n_n.contr.Idx) :
    (dot_S512x1024_S1024x1024_S512x1024_1_1_0_0_n_n.lhsIdx i κ 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_axis1 (i : S512x1024.Idx) (κ : dot_S512x1024_S1024x1024_S512x1024_1_1_0_0_n_n.contr.Idx) :
    (dot_S512x1024_S1024x1024_S512x1024_1_1_0_0_n_n.lhsIdx i κ 1).val = (κ ⟨0, by decide⟩).val :=
  dot_S512x1024_S1024x1024_S512x1024_1_1_0_0_n_n.lhsIdx_val_of_single rfl i κ
theorem rhs_axis0 (i : S512x1024.Idx) (κ : dot_S512x1024_S1024x1024_S512x1024_1_1_0_0_n_n.contr.Idx) :
    (dot_S512x1024_S1024x1024_S512x1024_1_1_0_0_n_n.rhsIdx i κ 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_axis1 (i : S512x1024.Idx) (κ : dot_S512x1024_S1024x1024_S512x1024_1_1_0_0_n_n.contr.Idx) :
    (dot_S512x1024_S1024x1024_S512x1024_1_1_0_0_n_n.rhsIdx i κ 1).val = (κ ⟨0, by decide⟩).val :=
  dot_S512x1024_S1024x1024_S512x1024_1_1_0_0_n_n.rhsIdx_val_of_single rfl i κ

/-- Entry (p, q) of the block product into a zero accumulator: row `p` of the activations against row `q` of the
    gate's matrix. -/
theorem matmul_at (a : FVec Ideal S512x1024 .bf16) (w : FVec Ideal S1024x1024 .bf16) (p : Fin 512) (q : Fin 1024) :
    matmul dot_S512x1024_S1024x1024_S512x1024_1_1_0_0_n_n none a w (constant S512x1024 .f32 0x00000000#32) (ix2 p q)
      = ∑ k : Fin 1024, a (ix2 p k) * w (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## The gates' slabs and rows -/

/-- A [1, 1024, 1024] slab viewed as a matrix reads (0, q, k) at (q, k). -/
theorem dropLead_at {α : Type} (v : S1x1024x1024.Idx → α) (q k : Fin 1024) :
    shapeCast S1024x1024 v shapeCasts_S1x1024x1024_S1024x1024 (ix2 q k) = v (ix3 (0 : Fin 1) q k) :=
  shapeCast_1ab_ab_apply v _ q k

/-- The unit slab of the stacked weights at offset [g, 0, 0] reads the stack at (g, q, k). -/
theorem slab_at (W : Vec Ideal S4x1024x1024 .bf16) (g : Fin 4) (off : Fin 3 → Nat) (hoff : off = ![g.val, 0, 0])
    (inb : ∀ a, off a + S1x1024x1024.size a ≤ S4x1024x1024.size a) (q k : Fin 1024) :
    View.ld W (Rect.unit (s := S4x1024x1024) off S1x1024x1024.size inb) (ix3 (0 : Fin 1) q k) = W (ix3 g q k) := by
  subst hoff
  show W ((Rect.unit (s := S4x1024x1024) ![g.val, 0, 0] S1x1024x1024.size inb).emb (ix3 (0 : Fin 1) q k)) = W (ix3 g q k)
  refine congrArg W (funext fun a => Fin.ext ?_)
  match a with
  | ⟨0, _⟩ => show g.val + 1 * 0 = g.val; omega
  | ⟨1, _⟩ => show 0 + 1 * q.val = q.val; omega
  | ⟨2, _⟩ => show 0 + 1 * k.val = k.val; omega

/-- The unit row of the stacked biases at offset [g, 0] reads the stack at (g, q). -/
theorem row_at (B : Vec Ideal S4x1024 .f32) (g : Fin 4) (off : Fin 2 → Nat) (hoff : off = ![g.val, 0])
    (inb : ∀ a, off a + S1x1024.size a ≤ S4x1024.size a) (q : Fin 1024) :
    View.ld B (Rect.unit (s := S4x1024) off S1x1024.size inb) (ix2 (0 : Fin 1) q) = B (ix2 g q) := by
  subst hoff
  show B ((Rect.unit (s := S4x1024) ![g.val, 0] S1x1024.size inb).emb (ix2 (0 : Fin 1) q)) = B (ix2 g q)
  refine congrArg B (funext fun a => Fin.ext ?_)
  match a with
  | ⟨0, _⟩ => show g.val + 1 * 0 = g.val; omega
  | ⟨1, _⟩ => show 0 + 1 * q.val = q.val; omega

/-- A [1, 1024] bias row, flattened, given its unit axis back and spread over 512 rows, reads (0, q) at (p, q). -/
theorem spread_at (v : Vec Ideal S1x1024 .f32) (p : Fin 512) (q : Fin 1024) :
    broadcastTo S512x1024 (shapeCast S1x1024 (shapeCast S1024 v shapeCasts_S1x1024_S1024) shapeCasts_S1024_S1x1024) broadcasts_S1x1024_S512x1024 (ix2 p q)
      = v (ix2 (0 : Fin 1) q) := by
  refine (broadcastTo_apply _ broadcasts_S1x1024_S512x1024 (ix2 p q) (ix2 (0 : Fin 1) q) (fun a => ?_)).trans ?_
  · match a with
    | ⟨0, _⟩ => show 0 = if (1 : Nat) = 1 then 0 else p.val; rw [if_pos rfl]
    | ⟨1, _⟩ => show q.val = if (1024 : Nat) = 1 then 0 else q.val; rw [if_neg (by decide)]
  · refine (shapeCast_a_1a_apply _ _ (0 : Fin 1) q).trans ?_
    exact shapeCast_1a_a_apply v _ q

/-! ## One gate over a block -/

/-- One gate's pre-activation over a block of 512 rows: the two products into zero accumulators, added, plus the
    spread bias row — the tree of operations the body spells four times. -/
def gateBlk {F : FTy → Type} [FloatOps F] (a h : FVec F S512x1024 .bf16) (wx wh : Vec F S1x1024x1024 .bf16) (b : Vec F S1x1024 .f32) :
    FVec F S512x1024 .f32 :=
  addf (addf (matmul dot_S512x1024_S1024x1024_S512x1024_1_1_0_0_n_n none a (shapeCast S1024x1024 wx shapeCasts_S1x1024x1024_S1024x1024 : FVec F S1024x1024 .bf16) (constant S512x1024 .f32 0x00000000#32))
      (matmul dot_S512x1024_S1024x1024_S512x1024_1_1_0_0_n_n none h (shapeCast S1024x1024 wh shapeCasts_S1x1024x1024_S1024x1024 : FVec F S1024x1024 .bf16) (constant S512x1024 .f32 0x00000000#32)))
    (broadcastTo S512x1024 (shapeCast S1x1024 (shapeCast S1024 b shapeCasts_S1x1024_S1024 : FVec F S1024 .f32) shapeCasts_S1024_S1x1024 : FVec F S1x1024 .f32)
      broadcasts_S1x1024_S512x1024 : FVec F S512x1024 .f32)

theorem gateBlk_at (a h : FVec Ideal S512x1024 .bf16) (wx wh : Vec Ideal S1x1024x1024 .bf16) (b : Vec Ideal S1x1024 .f32) (p : Fin 512) (q : Fin 1024) :
    gateBlk (F := Ideal) a h wx wh b (ix2 p q)
      = (∑ k : Fin 1024, a (ix2 p k) * wx (ix3 (0 : Fin 1) q k)) + (∑ k : Fin 1024, h (ix2 p k) * wh (ix3 (0 : Fin 1) q k)) + b (ix2 (0 : Fin 1) q) := by
  unfold gateBlk
  rw [addf_apply, addf_apply, matmul_at, matmul_at, spread_at]
  simp only [dropLead_at]

/-- Over gate `g`'s slabs and row of the stacked arrays it is the specification's gate on rows `p` of the blocks. -/
theorem gateBlk_stack_at (a h : FVec Ideal S512x1024 .bf16) (Wx Wh : Vec Ideal S4x1024x1024 .bf16) (B : Vec Ideal S4x1024 .f32) (g : Fin 4)
    (offW : Fin 3 → Nat) (hW : offW = ![g.val, 0, 0]) (inbW : ∀ a, offW a + S1x1024x1024.size a ≤ S4x1024x1024.size a)
    (offB : Fin 2 → Nat) (hB : offB = ![g.val, 0]) (inbB : ∀ a, offB a + S1x1024.size a ≤ S4x1024.size a) (p : Fin 512) (q : Fin 1024) :
    gateBlk (F := Ideal) a h (View.ld Wx (Rect.unit (s := S4x1024x1024) offW S1x1024x1024.size inbW)) (View.ld Wh (Rect.unit (s := S4x1024x1024) offW S1x1024x1024.size inbW))
        (View.ld B (Rect.unit (s := S4x1024) offB S1x1024.size inbB)) (ix2 p q)
      = gate (fun k => a (ix2 p k)) (fun k => h (ix2 p k)) Wx Wh B g q := by
  rw [gateBlk_at]
  unfold gate
  simp only [slab_at Wx g offW hW inbW, slab_at Wh g offW hW inbW, row_at B g offB hB inbB]

/-! ## The payloads -/

theorem pay3_eq (v : Vec Ideal S512x1024 .bf16) : k0_pay3 v = v := by unfold k0_pay3; exact shapeCast_self _ _
theorem pay4_eq (v : Vec Ideal S512x1024 .bf16) : k0_pay4 v = v := by unfold k0_pay4; exact shapeCast_self _ _

theorem pay5_eq (v0 v2 : Vec Ideal S512x1024 .bf16) (v5 v7 : Vec Ideal S1x1024x1024 .bf16) (v12 : Vec Ideal S1x1024 .f32) :
    k0_pay5 v0 v2 v5 v7 v12 = gateBlk (F := Ideal) v0 v2 v5 v7 v12 := by
  unfold k0_pay5 gateBlk; rw [pay3_eq, pay4_eq]
theorem pay6_eq (v0 v2 : Vec Ideal S512x1024 .bf16) (v17 v19 : Vec Ideal S1x1024x1024 .bf16) (v24 : Vec Ideal S1x1024 .f32) :
    k0_pay6 v0 v2 v17 v19 v24 = gateBlk (F := Ideal) v0 v2 v17 v19 v24 := by
  unfold k0_pay6 gateBlk; rw [pay3_eq, pay4_eq]

/-- The stored cell state at an entry: forget gate times the loaded state plus input gate times candidate. -/
theorem pay1_at (v1 v3 : FVec Ideal S512x1024 .bf16) (v4 : Vec Ideal S512x1024 .f32) (v16 v28 : FVec Ideal S512x1024 .f32)
    (v29 v31 : Vec Ideal S1x1024x1024 .bf16) (v36 : Vec Ideal S1x1024 .f32) (i : S512x1024.Idx) :
    k0_pay1 v1 v3 v4 v16 v28 v29 v31 v36 i
      = Ideal.logistic (v28 i) * v4 i + Ideal.logistic (v16 i) * Ideal.tanh (gateBlk (F := Ideal) v1 v3 v29 v31 v36 i) := by
  unfold k0_pay1 gateBlk; rfl

/-- The stored hidden state at an entry: output gate times `tanh` of the stored cell state. -/
theorem pay2_at (v1 v3 : FVec Ideal S512x1024 .bf16) (v4 : Vec Ideal S512x1024 .f32) (v16 v28 : FVec Ideal S512x1024 .f32)
    (v29 v31 : Vec Ideal S1x1024x1024 .bf16) (v36 : Vec Ideal S1x1024 .f32) (v41 v43 : Vec Ideal S1x1024x1024 .bf16) (v48 : Vec Ideal S1x1024 .f32)
    (i : S512x1024.Idx) :
    k0_pay2 v1 v3 v4 v16 v28 v29 v31 v36 v41 v43 v48 i
      = Ideal.logistic (gateBlk (F := Ideal) v1 v3 v41 v43 v48 i) * Ideal.tanh (k0_pay1 v1 v3 v4 v16 v28 v29 v31 v36 i) := by
  unfold k0_pay2 gateBlk; rfl

/-! ## What the body leaves in the two output blocks -/

theorem zeros2 : (![0, 0] : Fin 2 → Nat) = fun _ => 0 := funext fun a => by fin_cases a <;> rfl

/-- The cell-state block after the body, entry (p, q): the specification's cell on rows `p` of the activation blocks. -/
theorem cellBlk_at (x0 x1 : Vec Ideal S512x1024 .bf16) (x2 : Vec Ideal S512x1024 .f32) (x3 x4 : Vec Ideal S4x1024x1024 .bf16)
    (x5 : Vec Ideal S4x1024 .f32) (p : Fin 512) (q : Fin 1024) :
    out0_7 x0 x1 x2 x3 x4 x5 (ix2 p q)
      = cellAt (fun k => x0 (ix2 p k)) (fun k => x1 (ix2 p k)) (x2 (ix2 p q)) x3 x4 x5 q := by
  unfold out0_7
  rw [View.canon_unit_zero zeros2]
  simp only [View.ld_unit_zero (S := S512x1024) zeros2]
  rw [pay1_at, pay3_eq, pay4_eq, pay5_eq, pay6_eq]
  unfold cellAt
  rw [(show gateBlk (F := Ideal) x0 x1 (View.ld x3 r0_1) (View.ld x4 r0_1) (View.ld x5 r0_2) (ix2 p q) = gate (fun k => x0 (ix2 p k)) (fun k => x1 (ix2 p k)) x3 x4 x5 0 q from gateBlk_stack_at x0 x1 x3 x4 x5 0 _ rfl inb_S4x1024x1024_S1x1024x1024_0_0_0 _ rfl inb_S4x1024_S1x1024_0_0 p q),
    (show gateBlk (F := Ideal) x0 x1 (View.ld x3 r0_3) (View.ld x4 r0_3) (View.ld x5 r0_4) (ix2 p q) = gate (fun k => x0 (ix2 p k)) (fun k => x1 (ix2 p k)) x3 x4 x5 1 q from gateBlk_stack_at x0 x1 x3 x4 x5 1 _ rfl inb_S4x1024x1024_S1x1024x1024_1_0_0 _ rfl inb_S4x1024_S1x1024_1_0 p q),
    (show gateBlk (F := Ideal) x0 x1 (View.ld x3 r0_5) (View.ld x4 r0_5) (View.ld x5 r0_6) (ix2 p q) = gate (fun k => x0 (ix2 p k)) (fun k => x1 (ix2 p k)) x3 x4 x5 2 q from gateBlk_stack_at x0 x1 x3 x4 x5 2 _ rfl inb_S4x1024x1024_S1x1024x1024_2_0_0 _ rfl inb_S4x1024_S1x1024_2_0 p q)]

/-- The hidden-state block after the body, entry (p, q). -/
theorem hiddenBlk_at (x0 x1 : Vec Ideal S512x1024 .bf16) (x2 : Vec Ideal S512x1024 .f32) (x3 x4 : Vec Ideal S4x1024x1024 .bf16)
    (x5 : Vec Ideal S4x1024 .f32) (p : Fin 512) (q : Fin 1024) :
    out0_6 x0 x1 x2 x3 x4 x5 (ix2 p q)
      = hiddenAt (fun k => x0 (ix2 p k)) (fun k => x1 (ix2 p k)) (x2 (ix2 p q)) x3 x4 x5 q := by
  unfold out0_6
  rw [View.canon_unit_zero zeros2]
  simp only [View.ld_unit_zero (S := S512x1024) zeros2]
  rw [pay2_at, pay1_at, pay3_eq, pay4_eq, pay5_eq, pay6_eq]
  unfold hiddenAt cellAt
  rw [(show gateBlk (F := Ideal) x0 x1 (View.ld x3 r0_1) (View.ld x4 r0_1) (View.ld x5 r0_2) (ix2 p q) = gate (fun k => x0 (ix2 p k)) (fun k => x1 (ix2 p k)) x3 x4 x5 0 q from gateBlk_stack_at x0 x1 x3 x4 x5 0 _ rfl inb_S4x1024x1024_S1x1024x1024_0_0_0 _ rfl inb_S4x1024_S1x1024_0_0 p q),
    (show gateBlk (F := Ideal) x0 x1 (View.ld x3 r0_3) (View.ld x4 r0_3) (View.ld x5 r0_4) (ix2 p q) = gate (fun k => x0 (ix2 p k)) (fun k => x1 (ix2 p k)) x3 x4 x5 1 q from gateBlk_stack_at x0 x1 x3 x4 x5 1 _ rfl inb_S4x1024x1024_S1x1024x1024_1_0_0 _ rfl inb_S4x1024_S1x1024_1_0 p q),
    (show gateBlk (F := Ideal) x0 x1 (View.ld x3 r0_5) (View.ld x4 r0_5) (View.ld x5 r0_6) (ix2 p q) = gate (fun k => x0 (ix2 p k)) (fun k => x1 (ix2 p k)) x3 x4 x5 2 q from gateBlk_stack_at x0 x1 x3 x4 x5 2 _ rfl inb_S4x1024x1024_S1x1024x1024_2_0_0 _ rfl inb_S4x1024_S1x1024_2_0 p q),
    (show gateBlk (F := Ideal) x0 x1 (View.ld x3 r0_7) (View.ld x4 r0_7) (View.ld x5 r0_8) (ix2 p q) = gate (fun k => x0 (ix2 p k)) (fun k => x1 (ix2 p k)) x3 x4 x5 3 q from gateBlk_stack_at x0 x1 x3 x4 x5 3 _ rfl inb_S4x1024x1024_S1x1024x1024_3_0_0 _ rfl inb_S4x1024_S1x1024_3_0 p q)]

end Cert.KernelIdeal.Body

end
-- ==== Proof.KernelValue.lean ====
/-
  The kernel's two result arrays are the specification's.

  The kernel walks the 8192 batch rows in 16 blocks of 512. At grid point `t` it is handed rows
  [512·t, 512·t + 512) of the activations `x`, `h` (rounded to a narrower float format by the host before the call:
  on the extended reals that rounding is the identity) and of the old cell state `c`, together with the WHOLE stacked
  weights and biases at every point, and writes back rows [512·t, 512·t + 512) of the two results. A result entry of
  row `b` only reads row `b` of `x` and `h`, entry (b, q) of `c` and the weights, so the block written at `t` is the
  block of the specification's array there; the 16 blocks tile the array (row `b` lies in block `b / 512`).
-/
import proofs.«160627_j76519137345618_1_alg».proof.Proof.Gen.KernelIdeal.Value
import proofs.«160627_j76519137345618_1_alg».proof.Proof.Body
import Idealize.ShloMosaic.Lib.StableHlo.Run

noncomputable section

open scoped BigOperators

namespace Cert.KernelIdeal.RefValue

open Cert.KernelIdeal Cert.KernelIdeal.Gen Cert.KernelIdeal.Body Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds -/

/-- The host's change of format of `x` is the identity on the extended reals. -/
theorem V_x (c : Dev nD) : (V m c main_v0 : S8192x1024.Idx → EReal) = m ((c : Thread nD τ).loc main_arg0) := by
  dsimp only [Gen.V, Gen.hostOps0]; after_results; rfl
/-- Likewise of `h`. -/
theorem V_h (c : Dev nD) : (V m c main_v1 : S8192x1024.Idx → EReal) = m ((c : Thread nD τ).loc main_arg1) := by
  dsimp only [Gen.V, Gen.hostOps0]; after_results; rfl
/-- Likewise of the input weights. -/
theorem V_wx (c : Dev nD) : (V m c main_v2 : S4x1024x1024.Idx → EReal) = m ((c : Thread nD τ).loc main_arg3) := by
  dsimp only [Gen.V, Gen.hostOps0]; after_results; rfl
/-- Likewise of the recurrent weights. -/
theorem V_wh (c : Dev nD) : (V m c main_v3 : S4x1024x1024.Idx → EReal) = m ((c : Thread nD τ).loc main_arg4) := by
  dsimp only [Gen.V, Gen.hostOps0]; after_results; rfl

/-- The new cell state as the specification gives it from the launch contents of the six arguments. -/
abbrev cellArr (c : Dev nD) : S8192x1024.Idx → EReal :=
  cellNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The new hidden state likewise. -/
abbrev hiddenArr (c : Dev nD) : S8192x1024.Idx → EReal :=
  hiddenNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## The index maps over the grid -/

/-- The three row-blocked inputs and the two outputs all sit at block (t, 0); the stacked arrays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := Nat.lt_of_lt_of_eq t.isLt N_0

/-! ## The input blocks as parts of the argument arrays -/

/-- Row `p` of `x`'s block at point `t` is row 512·t + p of `x`. -/
theorem xblk_at (c : Dev nD) (t : Fin cfg0.N) (p : Fin 512) (k : Fin 1024) (hb : t.val * 512 + p.val < 8192) :
    iblk m c 0 t (ix2 p k) = m ((c : Thread nD τ).loc main_arg0) (ix2 (⟨t.val * 512 + p.val, hb⟩ : Fin 8192) k) := by
  obtain ⟨e0, e1, -⟩ := idx_facts t
  show (V m c main_v0 : S8192x1024.Idx → EReal) (((cfg0.win 0).blk t).view.emb (ix2 p k)) = _
  rw [V_x]
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

/-- Row `p` of `h`'s block at point `t` is row 512·t + p of `h`. -/
theorem hblk_at (c : Dev nD) (t : Fin cfg0.N) (p : Fin 512) (k : Fin 1024) (hb : t.val * 512 + p.val < 8192) :
    iblk m c 1 t (ix2 p k) = m ((c : Thread nD τ).loc main_arg1) (ix2 (⟨t.val * 512 + p.val, hb⟩ : Fin 8192) k) := by
  obtain ⟨-, -, e0, e1, -⟩ := idx_facts t
  show (V m c main_v1 : S8192x1024.Idx → EReal) (((cfg0.win 1).blk t).view.emb (ix2 p k)) = _
  rw [V_h]
  refine congrArg _ (funext fun a => Fin.ext ?_)
  match a with
  | ⟨0, _⟩ => show win0_1.index t (0 : Fin 2) * 512 + 1 * p.val = t.val * 512 + p.val; rw [e0]; omega
  | ⟨1, _⟩ => show win0_1.index t (1 : Fin 2) * 1024 + 1 * k.val = k.val; rw [e1]; omega

/-- Entry (p, q) of the old cell state's block at point `t` is entry (512·t + p, q) of the array. -/
theorem cblk_at (c : Dev nD) (t : Fin cfg0.N) (p : Fin 512) (q : Fin 1024) (hb : t.val * 512 + p.val < 8192) :
    iblk m c 2 t (ix2 p q) = m ((c : Thread nD τ).loc main_arg2) (ix2 (⟨t.val * 512 + p.val, hb⟩ : Fin 8192) q) := by
  obtain ⟨-, -, -, -, e0, e1, -⟩ := idx_facts t
  show (V m c main_arg2 : S8192x1024.Idx → EReal) (((cfg0.win 2).blk t).view.emb (ix2 p q)) = _
  rw [V_main_arg2]
  refine congrArg _ (funext fun a => Fin.ext ?_)
  match a with
  | ⟨0, _⟩ => show win0_2.index t (0 : Fin 2) * 512 + 1 * p.val = t.val * 512 + p.val; rw [e0]; omega
  | ⟨1, _⟩ => show win0_2.index t (1 : Fin 2) * 1024 + 1 * q.val = q.val; rw [e1]; omega

/-- The input weights' block is the whole stack at every point. -/
theorem wxblk_eq (c : Dev nD) (t : Fin cfg0.N) :
    (iblk m c 3 t : S4x1024x1024.Idx → EReal) = m ((c : Thread nD τ).loc main_arg3) := by
  obtain ⟨-, -, -, -, -, -, e0, e1, e2, -⟩ := idx_facts t
  funext y
  show (V m c main_v2 : S4x1024x1024.Idx → EReal) (((cfg0.win 3).blk t).view.emb y) = _
  rw [V_wx]
  refine congrArg _ (funext fun a => Fin.ext ?_)
  match a with
  | ⟨0, _⟩ => show win0_3.index t (0 : Fin 3) * 4 + 1 * (y 0).val = (y 0).val; rw [e0]; omega
  | ⟨1, _⟩ => show win0_3.index t (1 : Fin 3) * 1024 + 1 * (y 1).val = (y 1).val; rw [e1]; omega
  | ⟨2, _⟩ => show win0_3.index t (2 : Fin 3) * 1024 + 1 * (y 2).val = (y 2).val; rw [e2]; omega

/-- The recurrent weights' block is the whole stack at every point. -/
theorem whblk_eq (c : Dev nD) (t : Fin cfg0.N) :
    (iblk m c 4 t : S4x1024x1024.Idx → EReal) = m ((c : Thread nD τ).loc main_arg4) := by
  obtain ⟨-, -, -, -, -, -, -, -, -, e0, e1, e2, -⟩ := idx_facts t
  funext y
  show (V m c main_v3 : S4x1024x1024.Idx → EReal) (((cfg0.win 4).blk t).view.emb y) = _
  rw [V_wh]
  refine congrArg _ (funext fun a => Fin.ext ?_)
  match a with
  | ⟨0, _⟩ => show win0_4.index t (0 : Fin 3) * 4 + 1 * (y 0).val = (y 0).val; rw [e0]; omega
  | ⟨1, _⟩ => show win0_4.index t (1 : Fin 3) * 1024 + 1 * (y 1).val = (y 1).val; rw [e1]; omega
  | ⟨2, _⟩ => show win0_4.index t (2 : Fin 3) * 1024 + 1 * (y 2).val = (y 2).val; rw [e2]; omega

/-- The biases' block is the whole stack at every point. -/
theorem bblk_eq (c : Dev nD) (t : Fin cfg0.N) :
    (iblk m c 5 t : S4x1024.Idx → EReal) = m ((c : Thread nD τ).loc main_arg5) := by
  obtain ⟨-, -, -, -, -, -, -, -, -, -, -, -, e0, e1, -⟩ := idx_facts t
  funext y
  show (V m c main_arg5 : S4x1024.Idx → EReal) (((cfg0.win 5).blk t).view.emb y) = _
  rw [V_main_arg5]
  refine congrArg _ (funext fun a => Fin.ext ?_)
  match a with
  | ⟨0, _⟩ => show win0_5.index t (0 : Fin 2) * 4 + 1 * (y 0).val = (y 0).val; rw [e0]; omega
  | ⟨1, _⟩ => show win0_5.index t (1 : Fin 2) * 1024 + 1 * (y 1).val = (y 1).val; rw [e1]; omega

/-! ## What a point writes back -/

/-- From blocks that are rows [512·r, 512·r + 512) of the activations and of the old state, and the whole stacks,
    the body's cell-state block is those rows of the specification's array. -/
theorem cell_rows (X H C : S8192x1024.Idx → EReal) (x0 x1 : Vec Ideal S512x1024 .bf16) (x2 : Vec Ideal S512x1024 .f32)
    (WX WH : Vec Ideal S4x1024x1024 .bf16) (BH : Vec Ideal S4x1024 .f32) (r : Nat) (hr : r < 16)
    (h0 : ∀ (p : Fin 512) (k : Fin 1024) (hb : r * 512 + p.val < 8192), x0 (ix2 p k) = X (ix2 (⟨r * 512 + p.val, hb⟩ : Fin 8192) k))
    (h1 : ∀ (p : Fin 512) (k : Fin 1024) (hb : r * 512 + p.val < 8192), x1 (ix2 p k) = H (ix2 (⟨r * 512 + p.val, hb⟩ : Fin 8192) k))
    (h2 : ∀ (p : Fin 512) (q : Fin 1024) (hb : r * 512 + p.val < 8192), x2 (ix2 p q) = C (ix2 (⟨r * 512 + p.val, hb⟩ : Fin 8192) q))
    (p : Fin 512) (q : Fin 1024) (hb : r * 512 + p.val < 8192) :
    out0_7 x0 x1 x2 WX WH BH (ix2 p q) = cellNext X H C WX WH BH (ix2 (⟨r * 512 + p.val, hb⟩ : Fin 8192) q) := by
  rw [cellBlk_at, cellNext_ix2, h2 p q hb]
  simp only [h0 p _ hb, h1 p _ hb]

/-- The hidden-state block likewise. -/
theorem hidden_rows (X H C : S8192x1024.Idx → EReal) (x0 x1 : Vec Ideal S512x1024 .bf16) (x2 : Vec Ideal S512x1024 .f32)
    (WX WH : Vec Ideal S4x1024x1024 .bf16) (BH : Vec Ideal S4x1024 .f32) (r : Nat) (hr : r < 16)
    (h0 : ∀ (p : Fin 512) (k : Fin 1024) (hb : r * 512 + p.val < 8192), x0 (ix2 p k) = X (ix2 (⟨r * 512 + p.val, hb⟩ : Fin 8192) k))
    (h1 : ∀ (p : Fin 512) (k : Fin 1024) (hb : r * 512 + p.val < 8192), x1 (ix2 p k) = H (ix2 (⟨r * 512 + p.val, hb⟩ : Fin 8192) k))
    (h2 : ∀ (p : Fin 512) (q : Fin 1024) (hb : r * 512 + p.val < 8192), x2 (ix2 p q) = C (ix2 (⟨r * 512 + p.val, hb⟩ : Fin 8192) q))
    (p : Fin 512) (q : Fin 1024) (hb : r * 512 + p.val < 8192) :
    out0_6 x0 x1 x2 WX WH BH (ix2 p q) = hiddenNext X H C WX WH BH (ix2 (⟨r * 512 + p.val, hb⟩ : Fin 8192) q) := by
  rw [hiddenBlk_at, hiddenNext_ix2, h2 p q hb]
  simp only [h0 p _ hb, h1 p _ hb]

/-- WHAT POINT `t` WRITES BACK to the cell-state array is block `t` of the specification's array. -/
theorem flushed7_eq (c : Dev nD) (t : Fin cfg0.N) :
    (dats m 0 c).flushed 7 t = ((cfg0.win 7).blk t).view.read (Elt Ideal) (cellArr m c) := by
  rw [Value.flushed7]
  obtain ⟨-, -, -, -, -, -, -, -, -, -, -, -, -, -, -, -, e0, e1⟩ := idx_facts t
  have ht := t_lt t
  funext j
  have hj0 : (j 0).val < 512 := (j 0).isLt
  have hj1 : (j 1).val < 1024 := (j 1).isLt
  have hb : t.val * 512 + (j 0).val < 8192 := by omega
  have ej : (cfg0.win 7).xinj (grid0.coords t) j = ix2 (⟨(j 0).val, hj0⟩ : Fin 512) (⟨(j 1).val, hj1⟩ : Fin 1024) :=
    funext fun a => Fin.ext (by match a with | ⟨0, _⟩ => rfl | ⟨1, _⟩ => rfl)
  have ei : ((cfg0.win 7).blk t).view.emb j = ix2 (⟨t.val * 512 + (j 0).val, hb⟩ : Fin 8192) (⟨(j 1).val, hj1⟩ : Fin 1024) :=
    funext fun a => Fin.ext (by
      match a with
      | ⟨0, _⟩ => show win0_7.index t (0 : Fin 2) * 512 + 1 * (j 0).val = t.val * 512 + (j 0).val; rw [e0]; omega
      | ⟨1, _⟩ => show win0_7.index t (1 : Fin 2) * 1024 + 1 * (j 1).val = (j 1).val; rw [e1]; omega)
  show out0_7 (iblk m c 0 t) (iblk m c 1 t) (iblk m c 2 t) (iblk m c 3 t) (iblk m c 4 t) (iblk m c 5 t) ((cfg0.win 7).xinj (grid0.coords t) j)
    = cellArr m c (((cfg0.win 7).blk t).view.emb j)
  rw [ej, ei, wxblk_eq m c t, whblk_eq m c t, bblk_eq m c t]
  exact cell_rows (m ((c : Thread nD τ).loc main_arg0)) (m ((c : Thread nD τ).loc main_arg1)) (m ((c : Thread nD τ).loc main_arg2))
    (iblk m c 0 t) (iblk m c 1 t) (iblk m c 2 t) (m ((c : Thread nD τ).loc main_arg3)) (m ((c : Thread nD τ).loc main_arg4))
    (m ((c : Thread nD τ).loc main_arg5)) t.val ht (fun p k hb' => xblk_at m c t p k hb') (fun p k hb' => hblk_at m c t p k hb')
    (fun p q hb' => cblk_at m c t p q hb') ⟨(j 0).val, hj0⟩ ⟨(j 1).val, hj1⟩ hb

/-- WHAT POINT `t` WRITES BACK to the hidden-state array is block `t` of the specification's array. -/
theorem flushed6_eq (c : Dev nD) (t : Fin cfg0.N) :
    (dats m 0 c).flushed 6 t = ((cfg0.win 6).blk t).view.read (Elt Ideal) (hiddenArr m c) := by
  rw [Value.flushed6]
  obtain ⟨-, -, -, -, -, -, -, -, -, -, -, -, -, -, e0, e1, -⟩ := idx_facts t
  have ht := t_lt t
  funext j
  have hj0 : (j 0).val < 512 := (j 0).isLt
  have hj1 : (j 1).val < 1024 := (j 1).isLt
  have hb : t.val * 512 + (j 0).val < 8192 := by omega
  have ej : (cfg0.win 6).xinj (grid0.coords t) j = ix2 (⟨(j 0).val, hj0⟩ : Fin 512) (⟨(j 1).val, hj1⟩ : Fin 1024) :=
    funext fun a => Fin.ext (by match a with | ⟨0, _⟩ => rfl | ⟨1, _⟩ => rfl)
  have ei : ((cfg0.win 6).blk t).view.emb j = ix2 (⟨t.val * 512 + (j 0).val, hb⟩ : Fin 8192) (⟨(j 1).val, hj1⟩ : Fin 1024) :=
    funext fun a => Fin.ext (by
      match a with
      | ⟨0, _⟩ => show win0_6.index t (0 : Fin 2) * 512 + 1 * (j 0).val = t.val * 512 + (j 0).val; rw [e0]; omega
      | ⟨1, _⟩ => show win0_6.index t (1 : Fin 2) * 1024 + 1 * (j 1).val = (j 1).val; rw [e1]; omega)
  show out0_6 (iblk m c 0 t) (iblk m c 1 t) (iblk m c 2 t) (iblk m c 3 t) (iblk m c 4 t) (iblk m c 5 t) ((cfg0.win 6).xinj (grid0.coords t) j)
    = hiddenArr m c (((cfg0.win 6).blk t).view.emb j)
  rw [ej, ei, wxblk_eq m c t, whblk_eq m c t, bblk_eq m c t]
  exact hidden_rows (m ((c : Thread nD τ).loc main_arg0)) (m ((c : Thread nD τ).loc main_arg1)) (m ((c : Thread nD τ).loc main_arg2))
    (iblk m c 0 t) (iblk m c 1 t) (iblk m c 2 t) (m ((c : Thread nD τ).loc main_arg3)) (m ((c : Thread nD τ).loc main_arg4))
    (m ((c : Thread nD τ).loc main_arg5)) t.val ht (fun p k hb' => xblk_at m c t p k hb') (fun p k hb' => hblk_at m c t p k hb')
    (fun p q hb' => cblk_at m c t p q hb') ⟨(j 0).val, hj0⟩ ⟨(j 1).val, hj1⟩ hb

/-! ## The blocks tile the arrays -/

/-- An index of the cell-state array is in point `t`'s block iff each coordinate is in the block's range. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v4_1).slice (win0_7.rect t)).set ↔ _
  rw [View.set_slice_whole, Rect.mem_set_unit]
  exact Iff.rfl

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_0).slice (win0_6.rect t)).set ↔ _
  rw [View.set_slice_whole, Rect.mem_set_unit]
  exact Iff.rfl

/-- Row `b` lies in the block of point `b / 512`. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, -, -, -, -, -, -, -, -, -, -, -, -, e0, e1⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512
              rw [e0]; show (i 0).val / 512 * 512 ≤ (i 0).val ∧ (i 0).val < (i 0).val / 512 * 512 + 512; omega
  | ⟨1, _⟩ => show win0_7.index t (1 : Fin 2) * 1024 ≤ (i 1).val ∧ (i 1).val < win0_7.index t (1 : Fin 2) * 1024 + 1024
              rw [e1]; omega

theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  let t : Fin cfg0.N := ⟨(i 0).val / 512, by rw [show cfg0.N = 16 from N_0]; omega⟩
  obtain ⟨-, -, -, -, -, -, -, -, -, -, -, -, -, -, e0, e1, -⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512
              rw [e0]; show (i 0).val / 512 * 512 ≤ (i 0).val ∧ (i 0).val < (i 0).val / 512 * 512 + 512; omega
  | ⟨1, _⟩ => show win0_6.index t (1 : Fin 2) * 1024 ≤ (i 1).val ∧ (i 1).val < win0_6.index t (1 : Fin 2) * 1024 + 1024
              rw [e1]; omega

/-! ## The arrays after the run -/

theorem final7 (c : Dev nD) : (dats m 0 c).arrAt 7 cfg0.N = cellArr m c :=
  (dats m 0 c).arrAt_eq_of_cover 7 (cellArr m c) (fun t _ => flushed7_eq m c t) cover7

theorem final6 (c : Dev nD) : (dats m 0 c).arrAt 6 cfg0.N = hiddenArr m c :=
  (dats m 0 c).arrAt_eq_of_cover 6 (hiddenArr m c) (fun t _ => flushed6_eq m c t) cover6

/-- The kernel's run with both results named: the specification's arrays of the launch contents, the arguments
    unchanged. -/
theorem run : θ_run defs (onTc (τ := τ) (main (F := Ideal))) ⟨m, fun _ => 0, ρ⟩ fun r => ∀ c : Dev nD,
      r.2.mem ((c : Thread nD τ).loc main_v4_0) = hiddenArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.RefValue

end
-- ==== Proof.RefValue.lean ====
/-
  The reference program is the specification.

  The reference forms all four gates at once, as a [8192, 4, 1024] array: two contractions over the feature axis
  (x against Wx, h against Wh), added, plus the biases spread over the batch axis. It then takes the four unit
  slices along the gate axis, drops that axis, and applies the logistic function (spelt as negate, exponential,
  one plus, one over) to gates 0, 1 and 3 and tanh to gate 2; the two results follow by products and a sum.
  Entry (b, g, q) of the gate array is the specification's gate `g` on row `b` at unit `q`, with the same
  grouping of the three summands, so each result entry is the specification's, term by term.
-/
import proofs.«160627_j76519137345618_1_alg».proof.Proof.Gen.ReferenceIdeal.Read
import proofs.«160627_j76519137345618_1_alg».proof.Proof.Spec

noncomputable section

open scoped BigOperators

namespace Cert.ReferenceIdeal.RefValue

open Cert.ReferenceIdeal Cert.ReferenceIdeal.Gen Cert.ReferenceIdeal.Read Cert.LstmCell Idealize.ShloMosaic Idealize.ShloMosaic.ValueIdx

variable (x0 x1 x2 : (⟨S8192x1024, .f32⟩ : BufTy).Contents (Elt Ideal)) (x3 x4 : (⟨S4x1024x1024, .f32⟩ : BufTy).Contents (Elt Ideal))
  (x5 : (⟨S4x1024, .f32⟩ : BufTy).Contents (Elt Ideal))

/-- The gate array at (b, g, q) is gate `g` of row `b` at unit `q`. -/
theorem gates_at (b : Fin 8192) (g : Fin 4) (q : Fin 1024) :
    val_main_v5 (F := Ideal) x0 x1 x3 x4 x5 (ix3 b g q)
      = gate (fun k => x0 (ix2 b k)) (fun k => x1 (ix2 b k)) x3 x4 x5 g q := by
  have e0 : ∀ k : Fin 1024, lidx_main_v0 (ix3 b g q) k = ix2 b k := fun k => funext fun a => Fin.ext (by
    match a with | ⟨0, _⟩ => rfl | ⟨1, _⟩ => rfl)
  have e1 : ∀ k : Fin 1024, ridx_main_v0 (ix3 b g q) k = ix3 g q k := fun k => funext fun a => Fin.ext (by
    match a with | ⟨0, _⟩ => rfl | ⟨1, _⟩ => rfl | ⟨2, _⟩ => rfl)
  have e2 : ∀ k : Fin 1024, lidx_main_v1 (ix3 b g q) k = ix2 b k := fun k => funext fun a => Fin.ext (by
    match a with | ⟨0, _⟩ => rfl | ⟨1, _⟩ => rfl)
  have e3 : ∀ k : Fin 1024, ridx_main_v1 (ix3 b g q) k = ix3 g q k := fun k => funext fun a => Fin.ext (by
    match a with | ⟨0, _⟩ => rfl | ⟨1, _⟩ => rfl | ⟨2, _⟩ => rfl)
  have e4 : idx_main_v3 (idx_main_v4 (ix3 b g q)) = ix2 g q := funext fun a => Fin.ext (by
    match a with | ⟨0, _⟩ => rfl | ⟨1, _⟩ => rfl)
  rw [val_main_v5_apply, val_main_v2_apply, val_main_v0_apply, val_main_v1_apply, val_main_v4_apply, val_main_v3_apply]
  simp only [e0, e1, e2, e3, e4]
  rfl

/-- Row-major position b·1024 + q of a [8192, 1024] index splits back into (b, q). -/
theorem split_div (b : Fin 8192) (q : Fin 1024) : (b.val * 1024 + q.val) / 1024 = b.val := by
  have := q.isLt; omega
theorem split_mod (b : Fin 8192) (q : Fin 1024) : (b.val * 1024 + q.val) % 1024 = q.val := by
  have := q.isLt; omega

/-- The unit slice at gate 0 with the gate axis dropped. -/
theorem gate0_at (b : Fin 8192) (q : Fin 1024) :
    val_main_v7 (F := Ideal) x0 x1 x3 x4 x5 (ix2 b q) = gate (fun k => x0 (ix2 b k)) (fun k => x1 (ix2 b k)) x3 x4 x5 0 q := by
  rw [val_main_v7_apply, val_main_v6_apply, ← gates_at]
  refine congrArg _ (funext fun a => Fin.ext ?_)
  match a with
  | ⟨0, _⟩ => exact split_div b q
  | ⟨1, _⟩ => rfl
  | ⟨2, _⟩ => exact split_mod b q

/-- The unit slice at gate 1 with the gate axis dropped. -/
theorem gate1_at (b : Fin 8192) (q : Fin 1024) :
    val_main_v15 (F := Ideal) x0 x1 x3 x4 x5 (ix2 b q) = gate (fun k => x0 (ix2 b k)) (fun k => x1 (ix2 b k)) x3 x4 x5 1 q := by
  rw [val_main_v15_apply, val_main_v14_apply, ← gates_at]
  refine congrArg _ (funext fun a => Fin.ext ?_)
  match a with
  | ⟨0, _⟩ => exact split_div b q
  | ⟨1, _⟩ => rfl
  | ⟨2, _⟩ => exact split_mod b q

/-- The unit slice at gate 2 with the gate axis dropped. -/
theorem gate2_at (b : Fin 8192) (q : Fin 1024) :
    val_main_v23 (F := Ideal) x0 x1 x3 x4 x5 (ix2 b q) = gate (fun k => x0 (ix2 b k)) (fun k => x1 (ix2 b k)) x3 x4 x5 2 q := by
  rw [val_main_v23_apply, val_main_v22_apply, ← gates_at]
  refine congrArg _ (funext fun a => Fin.ext ?_)
  match a with
  | ⟨0, _⟩ => exact split_div b q
  | ⟨1, _⟩ => rfl
  | ⟨2, _⟩ => exact split_mod b q

/-- The unit slice at gate 3 with the gate axis dropped. -/
theorem gate3_at (b : Fin 8192) (q : Fin 1024) :
    val_main_v26 (F := Ideal) x0 x1 x3 x4 x5 (ix2 b q) = gate (fun k => x0 (ix2 b k)) (fun k => x1 (ix2 b k)) x3 x4 x5 3 q := by
  rw [val_main_v26_apply, val_main_v25_apply, ← gates_at]
  refine congrArg _ (funext fun a => Fin.ext ?_)
  match a with
  | ⟨0, _⟩ => exact split_div b q
  | ⟨1, _⟩ => rfl
  | ⟨2, _⟩ => exact split_mod b q

/-- The input gate: the logistic function of gate 0. -/
theorem sig0_at (b : Fin 8192) (q : Fin 1024) :
    val_main_v13 (F := Ideal) x0 x1 x3 x4 x5 (ix2 b q) = Ideal.logistic (gate (fun k => x0 (ix2 b k)) (fun k => x1 (ix2 b k)) x3 x4 x5 0 q) := by
  rw [val_main_v13_apply, val_main_v12_apply, val_main_cst_0_apply, val_main_v11_apply, val_main_v10_apply, val_main_cst_apply,
    val_main_v9_apply, val_main_v8_apply, host_sigmoid, gate0_at]

/-- The forget gate: the logistic function of gate 1. -/
theorem sig1_at (b : Fin 8192) (q : Fin 1024) :
    val_main_v21 (F := Ideal) x0 x1 x3 x4 x5 (ix2 b q) = Ideal.logistic (gate (fun k => x0 (ix2 b k)) (fun k => x1 (ix2 b k)) x3 x4 x5 1 q) := by
  rw [val_main_v21_apply, val_main_v20_apply, val_main_cst_2_apply, val_main_v19_apply, val_main_v18_apply, val_main_cst_1_apply,
    val_main_v17_apply, val_main_v16_apply, host_sigmoid, gate1_at]

/-- The output gate: the logistic function of gate 3. -/
theorem sig3_at (b : Fin 8192) (q : Fin 1024) :
    val_main_v32 (F := Ideal) x0 x1 x3 x4 x5 (ix2 b q) = Ideal.logistic (gate (fun k => x0 (ix2 b k)) (fun k => x1 (ix2 b k)) x3 x4 x5 3 q) := by
  rw [val_main_v32_apply, val_main_v31_apply, val_main_cst_4_apply, val_main_v30_apply, val_main_v29_apply, val_main_cst_3_apply,
    val_main_v28_apply, val_main_v27_apply, host_sigmoid, gate3_at]

/-- The second result, the new cell state, entry by entry. -/
theorem cell_at (b : Fin 8192) (q : Fin 1024) :
    val_main_v35 (F := Ideal) x0 x1 x2 x3 x4 x5 (ix2 b q)
      = cellAt (fun k => x0 (ix2 b k)) (fun k => x1 (ix2 b k)) (x2 (ix2 b q)) x3 x4 x5 q := by
  rw [val_main_v35_apply, val_main_v33_apply, val_main_v34_apply, val_main_v24_apply, sig1_at, sig0_at, gate2_at]
  rfl

/-- The first result, the new hidden state, entry by entry. -/
theorem hidden_at (b : Fin 8192) (q : Fin 1024) :
    val_main_v37 (F := Ideal) x0 x1 x2 x3 x4 x5 (ix2 b q)
      = hiddenAt (fun k => x0 (ix2 b k)) (fun k => x1 (ix2 b k)) (x2 (ix2 b q)) x3 x4 x5 q := by
  rw [val_main_v37_apply, val_main_v36_apply, sig3_at, cell_at]
  rfl

/-- The new cell state the reference computes is the specification's array. -/
theorem cell_eq : val_main_v35 (F := Ideal) x0 x1 x2 x3 x4 x5 = cellNext x0 x1 x2 x3 x4 x5 := by
  funext i
  obtain ⟨b, q, rfl⟩ : ∃ (b : Fin 8192) (q : Fin 1024), i = ix2 b q := ⟨i 0, i 1, eq_ix2 i⟩
  rw [cellNext_ix2]
  exact cell_at x0 x1 x2 x3 x4 x5 b q

/-- The new hidden state the reference computes is the specification's array. -/
theorem hidden_eq : val_main_v37 (F := Ideal) x0 x1 x2 x3 x4 x5 = hiddenNext x0 x1 x2 x3 x4 x5 := by
  funext i
  obtain ⟨b, q, rfl⟩ : ∃ (b : Fin 8192) (q : Fin 1024), i = ix2 b q := ⟨i 0, i 1, eq_ix2 i⟩
  rw [hiddenNext_ix2]
  exact hidden_at x0 x1 x2 x3 x4 x5 b q

end Cert.ReferenceIdeal.RefValue

end
-- ==== Proof.lean ====
/-
  An LSTM cell, computed two ways, is one function on the extended reals.

  Both programs take activations `x`, `h` and a cell state `c` of shape [8192, 1024], stacked gate weights `Wx`, `Wh`
  of shape [4, 1024, 1024] and stacked gate biases `bh` of shape [4, 1024], and return the new hidden state and the
  new cell state. With  s_g[b,q] = Σ_k x[b,k]·Wx[g,q,k] + Σ_k h[b,k]·Wh[g,q,k] + bh[g,q]  for the four gates g,
      c'[b,q] = σ(s_1[b,q])·c[b,q] + σ(s_0[b,q])·tanh(s_2[b,q]),      h'[b,q] = σ(s_3[b,q])·tanh(c'[b,q]),
  σ the logistic function (Proof/Spec.lean).

  The kernel works on 16 blocks of 512 batch rows: for each it forms every gate by two matrix products into zero
  accumulators (the feature axis of a block against the feature axis of the gate's matrix), adds the gate's bias row,
  and applies the logistic function and tanh (Proof/Body.lean: what a block holds after the body; Proof/KernelValue.lean:
  the blocks are rows of the arguments, and the written blocks tile the results). Before the call the host narrows the
  float format of `x`, `h`, `Wx`, `Wh`; on the extended reals that is the identity. The reference forms all gates as one
  [8192, 4, 1024] array by two contractions, slices it along the gate axis, and spells the logistic function as
  1 / (1 + e^(-s)) (Proof/RefValue.lean). Entry by entry the two sides are the same sums over the feature axis, grouped
  the same way, under the same functions, so the claim needs no algebraic law and never opens the precondition.

  The three frames are the generated ones (the reference's is its generated run with the results dropped); the
  idealization rewrote nothing, so its conjunct is `True`.
-/
import proofs.«160627_j76519137345618_1_alg».proof.Defs
import proofs.«160627_j76519137345618_1_alg».proof.Proof.Gen.Kernel
import proofs.«160627_j76519137345618_1_alg».proof.Proof.Gen.Kernel.Frame
import proofs.«160627_j76519137345618_1_alg».proof.Proof.Gen.KernelIdeal
import proofs.«160627_j76519137345618_1_alg».proof.Proof.Gen.KernelIdeal.Frame
import proofs.«160627_j76519137345618_1_alg».proof.Proof.Gen.KernelIdeal.Value
import proofs.«160627_j76519137345618_1_alg».proof.Proof.Gen.ReferenceIdeal
import proofs.«160627_j76519137345618_1_alg».proof.Proof.Gen.ReferenceIdeal.Run
import proofs.«160627_j76519137345618_1_alg».proof.Proof.Gen.ReferenceIdeal.Read
import proofs.«160627_j76519137345618_1_alg».proof.Proof.Gen.Pre_finite_inputs
import proofs.«160627_j76519137345618_1_alg».proof.Proof.KernelValue
import proofs.«160627_j76519137345618_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its six arguments as they were. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the six arguments both programs end with the specification's two arrays of them. -/
theorem algebraic : Cert.algebraic_KernelIdeal_ReferenceIdeal := by
  intro m ρ m' ρ' _ hagree
  refine ⟨fun c => Cert.KernelIdeal.RefValue.hiddenArr m c, fun c => Cert.KernelIdeal.RefValue.cellArr m c,
    Cert.KernelIdeal.RefValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5⟩ := hagree c
    rw [Cert.ReferenceIdeal.Read.val_main_v37_eq, Cert.ReferenceIdeal.RefValue.hidden_eq, a0, a1, a2, a3, a4, a5]
  · obtain ⟨a0, a1, a2, a3, a4, a5⟩ := hagree c
    rw [Cert.ReferenceIdeal.Read.val_main_v35_eq, Cert.ReferenceIdeal.RefValue.cell_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
